-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4000000x9 : Shape := ⟨2, ![4000000, 9]⟩
abbrev S1 : Shape := ⟨1, ![1]⟩
abbrev S_ : Shape := ⟨0, ![]⟩

class Facts : Prop where
  bcast_S_S4000000x9 : S_.BroadcastsInDim S4000000x9 (![] : Fin 0 → Fin S4000000x9.rank)
  reducesTo_S4000000x9_S_d0_1 : S4000000x9.ReducesTo [0, 1] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : FVec F S4000000x9 .f32) (main_arg1 : FVec F S1 .f32) : IVec S_ 1 :=
  let main_v0 : FVec F S4000000x9 .f32 := Host.absf main_arg0
  let main_cst : FVec F S_ .f32 := constant S_ .f32 0x7F800000#32
  let main_v1 : FVec F S4000000x9 .f32 := broadcastInDim S4000000x9 ![] bcast_S_S4000000x9 main_cst
  let main_v2 : IVec S4000000x9 1 := cmpf .olt main_v0 main_v1
  let main_c : IVec S_ 1 := constantI S_ 1 1#1
  let main_v3 : IVec S_ 1 := (fun x v => Host.reduce IntOp.andi x v reducesTo_S4000000x9_S_d0_1 h_S_) main_v2 main_c
  let main_v4 : FVec F S1 .f32 := Host.absf main_arg1
  let main_cst_0 : FVec F S_ .f32 := constant S_ .f32 0x7F800000#32
  let main_v5 : FVec F S1 .f32 := broadcastInDim S1 ![] bcast_S_S1 main_cst_0
  let main_v6 : IVec S1 1 := cmpf .olt main_v4 main_v5
  let main_c_1 : IVec S_ 1 := constantI S_ 1 1#1
  let main_v7 : IVec S_ 1 := (fun x v => Host.reduce IntOp.andi x v reducesTo_S1_S_d0 h_S_) main_v6 main_c_1
  let main_v8 : IVec S_ 1 := andi main_v3 main_v7
  main_v8
-- ==== Kernel.lean ====
abbrev S4000000x9 : Shape := ⟨2, ![4000000, 9]⟩
abbrev S1 : Shape := ⟨1, ![1]⟩
abbrev S9x9 : Shape := ⟨2, ![9, 9]⟩
abbrev S_ : Shape := ⟨0, ![]⟩
abbrev S9x4000000 : Shape := ⟨2, ![9, 4000000]⟩
abbrev S9x4096000 : Shape := ⟨2, ![9, 4096000]⟩
abbrev S4096000 : Shape := ⟨1, ![4096000]⟩
abbrev S9x256000 : Shape := ⟨2, ![9, 256000]⟩
abbrev S256000 : Shape := ⟨1, ![256000]⟩
abbrev S1x256000 : Shape := ⟨2, ![1, 256000]⟩
abbrev S4000000 : Shape := ⟨1, ![4000000]⟩

abbrev nBuf : Space → Nat
  | .hbm => 24
  | .vmem => 5
  | .smem => 0
  | _ => 0

abbrev bufTy : (tb : Table) → Fin (tcTables nBuf tb) → BufTy
  | .hbm, ⟨0, _⟩ => ⟨S4000000x9, .f32⟩
  | .hbm, ⟨1, _⟩ => ⟨S1, .f32⟩
  | .hbm, ⟨2, _⟩ => ⟨S9x9, .f32⟩
  | .hbm, ⟨3, _⟩ => ⟨S_, .f32⟩
  | .hbm, ⟨4, _⟩ => ⟨S9x9, .i32⟩
  | .hbm, ⟨5, _⟩ => ⟨S9x9, .i32⟩
  | .hbm, ⟨6, _⟩ => ⟨S_, .i32⟩
  | .hbm, ⟨7, _⟩ => ⟨S9x9, .i32⟩
  | .hbm, ⟨8, _⟩ => ⟨S9x9, .i32⟩
  | .hbm, ⟨9, _⟩ => ⟨S9x9, .i1⟩
  | .hbm, ⟨10, _⟩ => ⟨S9x9, .f32⟩
  | .hbm, ⟨11, _⟩ => ⟨S9x9, .f32⟩
  | .hbm, ⟨12, _⟩ => ⟨S9x9, .f32⟩
  | .hbm, ⟨13, _⟩ => ⟨S_, .f32⟩
  | .hbm, ⟨14, _⟩ => ⟨S_, .f32⟩
  | .hbm, ⟨15, _⟩ => ⟨S9x9, .f32⟩
  | .hbm, ⟨16, _⟩ => ⟨S9x9, .f32⟩
  | .hbm, ⟨17, _⟩ => ⟨S9x9, .f32⟩
  | .hbm, ⟨18, _⟩ => ⟨S9x4000000, .f32⟩
  | .hbm, ⟨19, _⟩ => ⟨S_, .i32⟩
  | .hbm, ⟨20, _⟩ => ⟨S_, .f32⟩
  | .hbm, ⟨21, _⟩ => ⟨S9x4096000, .f32⟩
  | .hbm, ⟨22, _⟩ => ⟨S4096000, .f32⟩
  | .hbm, ⟨23, _⟩ => ⟨S4000000, .f32⟩
  | .local _ .vmem, ⟨0, _⟩ => ⟨S9x9, .f32⟩
  | .local _ .vmem, ⟨1, _⟩ => ⟨S9x256000, .f32⟩
  | .local _ .vmem, ⟨2, _⟩ => ⟨S9x256000, .f32⟩
  | .local _ .vmem, ⟨3, _⟩ => ⟨S256000, .f32⟩
  | .local _ .vmem, ⟨4, _⟩ => ⟨S256000, .f32⟩
  | _, _ => ⟨S4000000x9, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c_1 : Ref sig .tc := ⟨.hbm, 19, rfl⟩
abbrev main_call0_v0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 1 → Nat :=
  let arg0 : BitVec 32 := BitVec.ofNat 32 (i 0).val
  let c0_i32 : BitVec 32 := 0#32
  ![arg0.toNat]

abbrev stage0_0 : Fin 1 → Memref sig .tc .vmem S9x9 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S9x256000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S1_S_ : S1.ShapeCasts S_
  bcast_S_S9x9 : S_.BroadcastsInDim S9x9 (![] : Fin 0 → Fin S9x9.rank)
  transposes_S4000000x9_S9x4000000_1_0 : S4000000x9.Transposes [1, 0] S9x4000000
  pads_S9x4000000_S9x4096000_000_0960000 : S9x4000000.Pads (![0, 0] : Fin 2 → Nat) ![0, 96000] ![0, 0] S9x4096000
  h_S_ : 0 < S_.numel
  inb_S9x9_S9x9_0_0 : ∀ a, (![0, 0] : Fin 2 → Nat) a + S9x9.size a ≤ S9x9.size a
  h_S9x9 : 0 < S9x9.numel
  shapeCasts_S9x9_S9x9 : S9x9.ShapeCasts S9x9
  inb_S9x256000_S9x256000_0_0 : ∀ a, (![0, 0] : Fin 2 → Nat) a + S9x256000.size a ≤ S9x256000.size a
  h_S9x256000 : 0 < S9x256000.numel
  shapeCasts_S9x256000_S9x256000 : S9x256000.ShapeCasts S9x256000
  slices_S9x256000_o0_0_S1x256000 : S9x256000.Slices ![0, 0] S1x256000
  shapeCasts_S1x256000_S256000 : S1x256000.ShapeCasts S256000
  inb_S256000_S256000_0 : ∀ a, (![0] : Fin 1 → Nat) a + S256000.size a ≤ S256000.size a
  h_S256000 : 0 < S256000.numel
  slices_S4096000_S4000000_0 : S4096000.Slices ![0] S4000000
  dot_S9x9_S9x256000_S9x256000_1_0_0_1_n_n_wf : DotDims.WF S9x9 S9x256000 S9x256000 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S9x9.size a ≤ S9x9.size a
  hwx0_0 : ∀ i : grid0.Coords, EltTy.bits .f32 = 32 ∨ (Rect.block (s := S9x9) S9x9.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S9x256000.size a ≤ S9x4096000.size a
  hwx0_1 : ∀ i : grid0.Coords, EltTy.bits .f32 = 32 ∨ (Rect.block (s := S9x4096000) S9x256000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256000.size a ≤ S4096000.size a
  hwx0_2 : ∀ i : grid0.Coords, EltTy.bits .f32 = 32 ∨ (Rect.block (s := S4096000) S256000.size (cc0_transform_2 i) (hinb0_2 i)).WholeWords (EltTy.packing .f32)

variable [Facts₀]

def dot_S9x9_S9x256000_S9x256000_1_0_0_1_n_n : DotDims S9x9 S9x256000 S9x256000 where
  lhsContracting := [1]
  rhsContracting := [0]
  lhsNonContracting := [0]
  rhsNonContracting := [1]
  lhsBatch := []
  rhsBatch := []
  wf := dot_S9x9_S9x256000_S9x256000_1_0_0_1_n_n_wf

abbrev win0_0 : Pipeline.Window sig grid0 :=
  Pipeline.Window.ofSpec (Memref.whole main_v12) S9x9.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v14) S9x256000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S256000.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4000000x9 : Shape := ⟨2, ![4000000, 9]⟩
abbrev S1 : Shape := ⟨1, ![1]⟩
abbrev S9x9 : Shape := ⟨2, ![9, 9]⟩
abbrev S1x1 : Shape := ⟨2, ![1, 1]⟩
abbrev S_ : Shape := ⟨0, ![]⟩
abbrev S4000000x1 : Shape := ⟨2, ![4000000, 1]⟩
abbrev S4000000 : Shape := ⟨1, ![4000000]⟩

abbrev nBuf : Space → Nat
  | .hbm => 65
  | .vmem => 0
  | .smem => 0
  | _ => 0

abbrev bufTy : (tb : Table) → Fin (tcTables nBuf tb) → BufTy
  | .hbm, ⟨0, _⟩ => ⟨S4000000x9, .f32⟩
  | .hbm, ⟨1, _⟩ => ⟨S1, .f32⟩
  | .hbm, ⟨2, _⟩ => ⟨S9x9, .f32⟩
  | .hbm, ⟨3, _⟩ => ⟨S9x9, .f32⟩
  | .hbm, ⟨4, _⟩ => ⟨S4000000x9, .f32⟩
  | .hbm, ⟨5, _⟩ => ⟨S1x1, .f32⟩
  | .hbm, ⟨6, _⟩ => ⟨S4000000x9, .f32⟩
  | .hbm, ⟨7, _⟩ => ⟨S4000000x9, .f32⟩
  | .hbm, ⟨8, _⟩ => ⟨S_, .f32⟩
  | .hbm, ⟨9, _⟩ => ⟨S1, .f32⟩
  | .hbm, ⟨10, _⟩ => ⟨S1, .f32⟩
  | .hbm, ⟨11, _⟩ => ⟨S1x1, .f32⟩
  | .hbm, ⟨12, _⟩ => ⟨S4000000x9, .f32⟩
  | .hbm, ⟨13, _⟩ => ⟨S4000000x9, .f32⟩
  | .hbm, ⟨14, _⟩ => ⟨S4000000x9, .f32⟩
  | .hbm, ⟨15, _⟩ => ⟨S4000000x9, .f32⟩
  | .hbm, ⟨16, _⟩ => ⟨S4000000x9, .f32⟩
  | .hbm, ⟨17, _⟩ => ⟨S_, .f32⟩
  | .hbm, ⟨18, _⟩ => ⟨S4000000x9, .f32⟩
  | .hbm, ⟨19, _⟩ => ⟨S4000000x9, .f32⟩
  | .hbm, ⟨20, _⟩ => ⟨S_, .f32⟩
  | .hbm, ⟨21, _⟩ => ⟨S4000000x9, .f32⟩
  | .hbm, ⟨22, _⟩ => ⟨S4000000x9, .f32⟩
  | .hbm, ⟨23, _⟩ => ⟨S9x9, .f32⟩
  | .hbm, ⟨24, _⟩ => ⟨S4000000x9, .f32⟩
  | .hbm, ⟨25, _⟩ => ⟨S1x1, .f32⟩
  | .hbm, ⟨26, _⟩ => ⟨S4000000x9, .f32⟩
  | .hbm, ⟨27, _⟩ => ⟨S4000000x9, .f32⟩
  | .hbm, ⟨28, _⟩ => ⟨S_, .f32⟩
  | .hbm, ⟨29, _⟩ => ⟨S1, .f32⟩
  | .hbm, ⟨30, _⟩ => ⟨S1, .f32⟩
  | .hbm, ⟨31, _⟩ => ⟨S1x1, .f32⟩
  | .hbm, ⟨32, _⟩ => ⟨S4000000x9, .f32⟩
  | .hbm, ⟨33, _⟩ => ⟨S4000000x9, .f32⟩
  | .hbm, ⟨34, _⟩ => ⟨S4000000x9, .f32⟩
  | .hbm, ⟨35, _⟩ => ⟨S4000000x9, .f32⟩
  | .hbm, ⟨36, _⟩ => ⟨S4000000x9, .f32⟩
  | .hbm, ⟨37, _⟩ => ⟨S_, .f32⟩
  | .hbm, ⟨38, _⟩ => ⟨S4000000x9, .f32⟩
  | .hbm, ⟨39, _⟩ => ⟨S4000000x9, .f32⟩
  | .hbm, ⟨40, _⟩ => ⟨S_, .f32⟩
  | .hbm, ⟨41, _⟩ => ⟨S4000000x9, .f32⟩
  | .hbm, ⟨42, _⟩ => ⟨S4000000x9, .f32⟩
  | .hbm, ⟨43, _⟩ => ⟨S9x9, .f32⟩
  | .hbm, ⟨44, _⟩ => ⟨S4000000x9, .f32⟩
  | .hbm, ⟨45, _⟩ => ⟨S1x1, .f32⟩
  | .hbm, ⟨46, _⟩ => ⟨S4000000x9, .f32⟩
  | .hbm, ⟨47, _⟩ => ⟨S4000000x9, .f32⟩
  | .hbm, ⟨48, _⟩ => ⟨S_, .f32⟩
  | .hbm, ⟨49, _⟩ => ⟨S1, .f32⟩
  | .hbm, ⟨50, _⟩ => ⟨S1, .f32⟩
  | .hbm, ⟨51, _⟩ => ⟨S1x1, .f32⟩
  | .hbm, ⟨52, _⟩ => ⟨S4000000x9, .f32⟩
  | .hbm, ⟨53, _⟩ => ⟨S4000000x9, .f32⟩
  | .hbm, ⟨54, _⟩ => ⟨S4000000x9, .f32⟩
  | .hbm, ⟨55, _⟩ => ⟨S4000000x9, .f32⟩
  | .hbm, ⟨56, _⟩ => ⟨S4000000x9, .f32⟩
  | .hbm, ⟨57, _⟩ => ⟨S_, .f32⟩
  | .hbm, ⟨58, _⟩ => ⟨S4000000x9, .f32⟩
  | .hbm, ⟨59, _⟩ => ⟨S4000000x9, .f32⟩
  | .hbm, ⟨60, _⟩ => ⟨S_, .f32⟩
  | .hbm, ⟨61, _⟩ => ⟨S4000000x9, .f32⟩
  | .hbm, ⟨62, _⟩ => ⟨S4000000x9, .f32⟩
  | .hbm, ⟨63, _⟩ => ⟨S4000000x1, .f32⟩
  | .hbm, ⟨64, _⟩ => ⟨S4000000, .f32⟩
  | _, _ => ⟨S4000000x9, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_3 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_4 : Ref sig .tc := ⟨.hbm, 37, rfl⟩
abbrev main_v30 : Ref sig .tc := ⟨.hbm, 38, rfl⟩
abbrev main_v31 : Ref sig .tc := ⟨.hbm, 39, rfl⟩
abbrev main_cst_5 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_cst_6 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_cst_7 : Ref sig .tc := ⟨.hbm, 57, rfl⟩
abbrev main_v47 : Ref sig .tc := ⟨.hbm, 58, rfl⟩
abbrev main_v48 : Ref sig .tc := ⟨.hbm, 59, rfl⟩
abbrev main_cst_8 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩

abbrev nD : Nat := 1
abbrev τ : Topo := Topo.v7x

variable {F : FTy → Type} [FloatOps F]

class Facts₀ : Prop where
  transposes_S9x9_S9x9_1_0 : S9x9.Transposes [1, 0] S9x9
  bcast_S1_S1x1_1 : S1.BroadcastsInDim S1x1 (![1] : Fin 1 → Fin S1x1.rank)
  bcast_S1x1_S4000000x9_0_1 : S1x1.BroadcastsInDim S4000000x9 (![0, 1] : Fin 2 → Fin S4000000x9.rank)
  bcast_S_S1 : S_.BroadcastsInDim S1 (![] : Fin 0 → Fin S1.rank)
  bcast_S_S4000000x9 : S_.BroadcastsInDim S4000000x9 (![] : Fin 0 → Fin S4000000x9.rank)
  slices_S4000000x9_S4000000x1_0_0 : S4000000x9.Slices ![0, 0] S4000000x1
  shapeCasts_S4000000x1_S4000000 : S4000000x1.ShapeCasts S4000000
  dot_S4000000x9_S9x9_S4000000x9_1_0_0_1_n_n_wf : DotDims.WF S4000000x9 S9x9 S4000000x9 [1] [0] [0] [1] [] []

variable [Facts₀]

def dot_S4000000x9_S9x9_S4000000x9_1_0_0_1_n_n : DotDims S4000000x9 S9x9 S4000000x9 where
  lhsContracting := [1]
  rhsContracting := [0]
  lhsNonContracting := [0]
  rhsNonContracting := [1]
  lhsBatch := []
  rhsBatch := []
  wf := dot_S4000000x9_S9x9_S4000000x9_1_0_0_1_n_n_wf

class Facts : Prop extends Facts₀ where

variable [Facts]
-- ==== Proof.LibMatmul.lean ====
/-
  A plain matrix product read at an index.

  For the dimension numbers of `[a, c] × [c, b] → [a, b]` (no batch axis; the left operand contracts its axis 1, the
  right its axis 0; the result's axes are the left's axis 0 then the right's axis 1) the operand indices at result
  index `(p, q)` and contraction position `i` are `(p, i)` and `(i, q)`, and the contraction's one-axis index set
  is `Fin c`. So, at the ideal values, a `tpu.matmul` into the zero accumulator and the host's `dot_general` are
  both `∑ i : Fin c, L (p, i) · R (i, q)`. General in the three extents and in the dimension record, which is taken
  with its six lists as hypotheses (a printed record's lists are literals: each hypothesis is `rfl`).
-/
import Idealize.ShloMosaic.Lib.ValueIdx
import Idealize.ShloMosaic.PureOps.Ideal.Laws

noncomputable section

namespace Cert.LibMatmul

open Idealize.ShloMosaic Idealize.ShloMosaic.ValueIdx

variable {a b c : Nat}

/-- The dimension numbers of a plain matrix product `[a, c] × [c, b] → [a, b]`. -/
structure Plain (d : DotDims ⟨2, ![a, c]⟩ ⟨2, ![c, b]⟩ ⟨2, ![a, b]⟩) : Prop where
  lhsBatch : d.lhsBatch = []
  lhsNon : d.lhsNonContracting = [0]
  lhsContr : d.lhsContracting = [1]
  rhsBatch : d.rhsBatch = []
  rhsNon : d.rhsNonContracting = [1]
  rhsContr : d.rhsContracting = [0]

variable {d : DotDims ⟨2, ![a, c]⟩ ⟨2, ![c, b]⟩ ⟨2, ![a, b]⟩}

/-- A coordinate of an index depends on the axis's number only. -/
private theorem coord_congr {s : Shape} (j : s.Idx) (m n : Nat) (hm : m < s.rank) (hn : n < s.rank) (h : m = n) :
    (j ⟨m, hm⟩).val = (j ⟨n, hn⟩).val := by subst h; rfl

/-- The left operand's row is the result's row. -/
theorem lhs_axis0 (hd : Plain d) (j : (⟨2, ![a, b]⟩ : Shape).Idx) (k : d.contr.Idx) :
    (d.lhsIdx j k 0).val = (j 0).val := by
  unfold DotDims.lhsIdx
  rw [dif_neg (by rw [hd.lhsBatch]; exact List.not_mem_nil), dif_pos (by rw [hd.lhsNon]; exact List.mem_singleton.mpr rfl)]
  simp only [Fin.val_cast]
  exact coord_congr j _ _ _ _ (by rw [hd.lhsBatch, hd.lhsNon]; rfl)

/-- The left operand's column is the contraction position. -/
theorem lhs_axis1 (hd : Plain d) (j : (⟨2, ![a, b]⟩ : Shape).Idx) (k : d.contr.Idx) :
    (d.lhsIdx j k 1).val = (k ⟨0, by rw [d.rank_contr, hd.lhsContr]; exact Nat.one_pos⟩).val :=
  d.lhsIdx_val_of_single hd.lhsContr j k

/-- The right operand's row is the contraction position. -/
theorem rhs_axis0 (hd : Plain d) (j : (⟨2, ![a, b]⟩ : Shape).Idx) (k : d.contr.Idx) :
    (d.rhsIdx j k 0).val = (k ⟨0, by rw [d.rank_contr, hd.lhsContr]; exact Nat.one_pos⟩).val :=
  d.rhsIdx_val_of_single hd.rhsContr j k

/-- The right operand's column is the result's column. -/
theorem rhs_axis1 (hd : Plain d) (j : (⟨2, ![a, b]⟩ : Shape).Idx) (k : d.contr.Idx) :
    (d.rhsIdx j k 1).val = (j 1).val := by
  unfold DotDims.rhsIdx
  rw [dif_neg (by rw [hd.rhsBatch]; exact List.not_mem_nil), dif_pos (by rw [hd.rhsNon]; exact List.mem_singleton.mpr rfl)]
  simp only [Fin.val_cast]
  exact coord_congr j _ _ _ _ (by rw [hd.lhsBatch, hd.lhsNon, hd.rhsNon]; rfl)

/-- The contraction has one axis, -/
theorem contr_rank (hd : Plain d) : d.contr.rank = 1 := by rw [d.rank_contr, hd.lhsContr]; rfl

/-- of extent `c`. -/
theorem contr_size (hd : Plain d) : d.contr.size ⟨0, by rw [contr_rank hd]; exact Nat.one_pos⟩ = c := by
  have h := d.size_contr 0 (by rw [hd.lhsContr]; exact Nat.one_pos)
  rw [List.getElem_of_eq hd.lhsContr] at h
  exact h

/-- The contraction's sum, over the one coordinate. -/
theorem sum_contr (hd : Plain d) (L : (⟨2, ![a, c]⟩ : Shape).Idx → EReal) (R : (⟨2, ![c, b]⟩ : Shape).Idx → EReal)
    (p : Fin a) (q : Fin b) :
    ∑ k : d.contr.Idx, L (d.lhsIdx (ix2 p q) k) * R (d.rhsIdx (ix2 p q) k) = ∑ i : Fin c, L (ix2 p i) * R (ix2 i q) := by
  rw [← Equiv.sum_comp (contrEquiv1 d c (contr_rank hd) (contr_size hd)).symm]
  refine Finset.sum_congr rfl fun i _ => ?_
  have hk := contrEquiv1_symm_val d c (contr_rank hd) (contr_size hd) i
  have el : d.lhsIdx (ix2 p q) ((contrEquiv1 d c (contr_rank hd) (contr_size hd)).symm i) = ix2 p i :=
    funext fun ax => Fin.ext (by
      match ax with
      | ⟨0, _⟩ => exact lhs_axis0 hd _ _
      | ⟨1, _⟩ => exact (lhs_axis1 hd _ _).trans hk)
  have er : d.rhsIdx (ix2 p q) ((contrEquiv1 d c (contr_rank hd) (contr_size hd)).symm i) = ix2 i q :=
    funext fun ax => Fin.ext (by
      match ax with
      | ⟨0, _⟩ => exact (rhs_axis0 hd _ _).trans hk
      | ⟨1, _⟩ => exact rhs_axis1 hd _ _)
  rw [el, er]

/-- A `tpu.matmul` into the zero accumulator, at the ideal values, read at `(p, q)`. -/
theorem matmul_zero_apply (hd : Plain d) (prec : Option ContractPrecision) {φ₁ φ₂ : FTy}
    (L : FVec Ideal ⟨2, ![a, c]⟩ φ₁) (R : FVec Ideal ⟨2, ![c, b]⟩ φ₂) (p : Fin a) (q : Fin b) :
    matmul d prec L R (constant ⟨2, ![a, b]⟩ .f32 0x00000000#32) (ix2 p q) = ∑ i : Fin c, L (ix2 p i) * R (ix2 i q) := by
  show FloatOps.matmul d prec L R (constant ⟨2, ![a, b]⟩ .f32 0x00000000#32) (ix2 p q) = _
  rw [Ideal.matmul_constant_zero_apply]
  exact sum_contr hd L R p q

/-- The host's `dot_general`, at the ideal values, read at `(p, q)`. -/
theorem dotGeneral_apply (hd : Plain d) (prec : Option ContractPrecision) {φ₁ φ₂ : FTy}
    (L : FVec Ideal ⟨2, ![a, c]⟩ φ₁) (R : FVec Ideal ⟨2, ![c, b]⟩ φ₂) (p : Fin a) (q : Fin b) :
    Host.dotGeneral d prec L R (ix2 p q) = ∑ i : Fin c, L (ix2 p i) * R (ix2 i q) := by
  show FloatOps.dotGeneral d prec .single L R (ix2 p q) = _
  rw [Ideal.dotGeneral_apply]
  exact sum_contr hd L R p q

end Cert.LibMatmul

end
-- ==== Proof.Sigmoid.lean ====
/-
  The mathematics shared by the two programs, on ONE sample: nine values `v : Fin 9 → EReal`, a weight `w` and a
  nine by nine stencil `S`.

  The reference's round is `v_j ↦ 1 / (1 + exp (-(w · v_j + (1 - w) · ∑ k, v_k · S j k)))`; the kernel's round first
  folds the convex combination into one matrix `M j k = w · [j = k] + (1 - w) · S j k` and is
  `v_j ↦ ½ · tanh (½ · ∑ k, M j k · v_k) + ½`. On FINITE reals the two are one function:
  `∑ k, (w · [j = k] + (1 - w) · S j k) · v_k = w · v_j + (1 - w) · ∑ k, v_k · S j k` is distributivity over a finite sum
  (false at an infinity, which is why the values are taken real), and `½ · tanh (z / 2) + ½ = 1 / (1 + e^(-z))` is the
  logistic function written through the hyperbolic tangent. Each round sends reals to reals (its value lies in
  (0, 1)), so the law iterates.
-/
import Idealize.ShloMosaic.PureOps.Ideal

noncomputable section

namespace Cert.Sigmoid

open Idealize.ShloMosaic

/-! ## The literals the two programs spell -/

/-- The pattern of `0.5` denotes the real one half. -/
theorem ofBits_half : Ideal.ofBits .f32 0x3F000000#32 = ((1 / 2 : ℝ) : EReal) := by
  simp [Ideal.ofBits, Ideal.ieee, -EReal.coe_mul]; norm_num

/-- The pattern of `1.0` denotes the real one. -/
theorem ofBits_one : Ideal.ofBits .f32 0x3F800000#32 = ((1 : ℝ) : EReal) := by
  simp [Ideal.ofBits, Ideal.ieee, -EReal.coe_mul]; norm_num

/-- A binary32 pattern whose exponent field is not all ones denotes a real number (neither infinity nor the
    junk a NaN reads as). -/
theorem ofBits_f32_real (b : BitVec 32) (h : (b.extractLsb' 23 8).toNat ≠ 255) :
    ∃ r : ℝ, Ideal.ofBits .f32 b = (r : EReal) := by
  show ∃ r : ℝ, Ideal.ieee 8 23 b = (r : EReal)
  unfold Ideal.ieee
  simp only []
  rw [if_neg (by simpa using h)]
  split_ifs <;> exact ⟨_, rfl⟩

/-! ## Finite sums of reals, inside the extended reals -/

/-- The coercion of the reals into the extended reals commutes with finite sums. -/
theorem coe_sum {ι : Type} (s : Finset ι) (f : ι → ℝ) :
    ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-! ## The logistic function, twice -/

/-- The logistic function on the reals. -/
def σ (z : ℝ) : ℝ := 1 / (1 + Real.exp (-z))

/-- The logistic function through the hyperbolic tangent: with `p = e^(z/2)` and `q = e^(-z/2)`, `p · q = 1`, the left
    side is `p / (p + q)` and the right `1 / (1 + q²)`. -/
theorem half_tanh_half (z : ℝ) : (1 / 2 : ℝ) * Real.tanh ((1 / 2) * z) + 1 / 2 = σ z := by
  have hp : 0 < Real.exp ((1 / 2) * z) := Real.exp_pos _
  have hq : 0 < Real.exp (-((1 / 2) * z)) := Real.exp_pos _
  have hpq : Real.exp ((1 / 2) * z) * Real.exp (-((1 / 2) * z)) = 1 := by
    rw [← Real.exp_add]; simp
  have hz : Real.exp (-z) = Real.exp (-((1 / 2) * z)) * Real.exp (-((1 / 2) * z)) := by
    rw [← Real.exp_add]; congr 1; ring
  unfold σ
  rw [Real.tanh_eq_sinh_div_cosh, Real.sinh_eq, Real.cosh_eq, hz]
  generalize Real.exp ((1 / 2) * z) = p at hp hpq ⊢
  generalize Real.exp (-((1 / 2) * z)) = q at hq hpq ⊢
  have h1 : p + q ≠ 0 := by positivity
  have h2 : 1 + q * q ≠ 0 := by positivity
  field_simp
  linear_combination (2 * q) * hpq

/-- The kernel's activation at a real argument. -/
theorem kerAct_coe (z : ℝ) :
    Ideal.ofBits .f32 0x3F000000#32 * Ideal.tanh (Ideal.ofBits .f32 0x3F000000#32 * (z : EReal)) + Ideal.ofBits .f32 0x3F000000#32
      = ((σ z : ℝ) : EReal) := by
  rw [ofBits_half, ← EReal.coe_mul, Ideal.tanh_coe, ← EReal.coe_mul, ← EReal.coe_add, half_tanh_half]

/-- The reference's activation at a real argument: the denominator `1 + e^(-z)` is a positive real. -/
theorem refAct_coe (z : ℝ) :
    Ideal.div (Ideal.ofBits .f32 0x3F800000#32) (Ideal.ofBits .f32 0x3F800000#32 + Ideal.exp (-(z : EReal)))
      = ((σ z : ℝ) : EReal) := by
  have hpos : (1 + Real.exp (-z) : ℝ) ≠ 0 := by positivity
  rw [ofBits_one, ← EReal.coe_neg, Ideal.exp_coe, ← EReal.coe_add, Ideal.div_coe hpos, ← EReal.coe_mul, one_mul]
  rfl

/-! ## One round on one sample -/

/-- The reference's round. -/
def refRound (w : EReal) (S : Fin 9 → Fin 9 → EReal) (v : Fin 9 → EReal) : Fin 9 → EReal := fun j =>
  Ideal.div (Ideal.ofBits .f32 0x3F800000#32)
    (Ideal.ofBits .f32 0x3F800000#32
      + Ideal.exp (-(w * v j + (Ideal.ofBits .f32 0x3F800000#32 - w) * ∑ k : Fin 9, v k * S j k)))

/-- The kernel's round, over its fused matrix. -/
def kerRound (M : Fin 9 → Fin 9 → EReal) (v : Fin 9 → EReal) : Fin 9 → EReal := fun j =>
  Ideal.ofBits .f32 0x3F000000#32 * Ideal.tanh (Ideal.ofBits .f32 0x3F000000#32 * ∑ k : Fin 9, M j k * v k)
    + Ideal.ofBits .f32 0x3F000000#32

/-- The kernel's fused matrix: `w` on the diagonal (the indicator `δ` of `j = k`) plus `1 - w` times the stencil. -/
def fused (w : EReal) (δ S : Fin 9 → Fin 9 → EReal) : Fin 9 → Fin 9 → EReal := fun j k =>
  w * δ j k + (Ideal.ofBits .f32 0x3F800000#32 - w) * S j k

/-- The common real value of one round. -/
def realRound (w : ℝ) (S : Fin 9 → Fin 9 → ℝ) (v : Fin 9 → ℝ) : Fin 9 → ℝ := fun j =>
  σ (w * v j + (1 - w) * ∑ k : Fin 9, v k * S j k)

/-- On reals the reference's round is the real round. -/
theorem refRound_coe (w : ℝ) (S : Fin 9 → Fin 9 → ℝ) (v : Fin 9 → ℝ) :
    refRound (w : EReal) (fun j k => (S j k : EReal)) (fun k => (v k : EReal)) = fun j => ((realRound w S v j : ℝ) : EReal) := by
  funext j
  unfold refRound realRound
  rw [← refAct_coe]
  simp only [ofBits_one, ← EReal.coe_mul, coe_sum, ← EReal.coe_sub, ← EReal.coe_add]

/-- On reals the kernel's round over the fused matrix is the real round: the matrix row against the sample splits,
    by distributivity, into the diagonal term `w · v_j` and `(1 - w)` times the stencil's average. -/
theorem kerRound_coe (w : ℝ) (S : Fin 9 → Fin 9 → ℝ) (v : Fin 9 → ℝ) :
    kerRound (fused (w : EReal) (fun j k => ((if j = k then (1 : ℝ) else 0 : ℝ) : EReal)) (fun j k => (S j k : EReal)))
        (fun k => (v k : EReal))
      = fun j => ((realRound w S v j : ℝ) : EReal) := by
  funext j
  unfold kerRound realRound fused
  rw [← kerAct_coe]
  simp only [ofBits_one, ← EReal.coe_mul, ← EReal.coe_sub, ← EReal.coe_add, coe_sum]
  congr 3
  have : ∀ k : Fin 9, (w * (if j = k then (1 : ℝ) else 0) + (1 - w) * S j k) * v k
      = (if j = k then w * v k else 0) + (1 - w) * (v k * S j k) := by
    intro k; split_ifs <;> ring
  simp only [this]
  rw [Finset.sum_add_distrib, Finset.sum_ite_eq Finset.univ j, if_pos (Finset.mem_univ j), ← Finset.mul_sum]

end Cert.Sigmoid

end
-- ==== Proof.KerPay.lean ====
/-
  The kernel body's one stored value, read at one lane.

  The body loads the fused nine by nine matrix `M` and a block `x` of nine rows by 256000 samples, runs three
  rounds `x ↦ ½ · tanh (½ · (M · x)) + ½` (the product a `tpu.matmul` into the zero accumulator) and stores row 0. A
  round at entry `(j, q)` depends on column `q` only: `(M · x) (j, q) = ∑ k, M (j, k) · x (k, q)`. So the round on the
  block is the per-sample round `Sigmoid.kerRound` on each column, and the stored vector at lane `q` is feature 0 of
  three per-sample rounds of column `q`.
-/
import proofs.«416986_j56925496541545_3_alg».proof.Proof.Gen.KernelIdeal.Skeleton
import proofs.«416986_j56925496541545_3_alg».proof.Proof.LibMatmul
import proofs.«416986_j56925496541545_3_alg».proof.Proof.Sigmoid
import Idealize.ShloMosaic.Lib.Pipeline.Value
import Idealize.ShloMosaic.Lib.ValueLayout

noncomputable section

namespace Cert.KernelIdeal.KerPay

open Cert.KernelIdeal Cert.KernelIdeal.Gen Cert.Sigmoid
open Idealize.ShloMosaic Idealize.ShloMosaic.ValueIdx

/-- The kernel's `tpu.matmul` is a plain matrix product `[9, 9] × [9, 256000]`. -/
theorem plain : Cert.LibMatmul.Plain dot_S9x9_S9x256000_S9x256000_1_0_0_1_n_n := ⟨rfl, rfl, rfl, rfl, rfl, rfl⟩

/-- ONE round of the kernel on the whole block: `½ · tanh (½ · (M · x)) + ½`. -/
def kerStep (M : FVec Ideal S9x9 .f32) (x : FVec Ideal S9x256000 .f32) : FVec Ideal S9x256000 .f32 :=
  addf
    (mulf (broadcast S9x256000 (Scalar.ofBits .f32 0x3F000000#32))
      (tanh
        (mulf (broadcast S9x256000 (Scalar.ofBits .f32 0x3F000000#32))
          (matmul dot_S9x9_S9x256000_S9x256000_1_0_0_1_n_n none M x (constant S9x256000 .f32 0x00000000#32)))))
    (broadcast S9x256000 (Scalar.ofBits .f32 0x3F000000#32))

/-- The stored value is row 0 of three rounds of the loaded block under the loaded matrix. -/
theorem pay_eq (x0 : Vec Ideal S9x9 .f32) (x1 : Vec Ideal S9x256000 .f32) :
    k0_pay1 x0 x1
      = shapeCast S256000
          (extractStridedSlice S1x256000 ![0, 0]
            (kerStep (shapeCast S9x9 x0 shapeCasts_S9x9_S9x9)
              (kerStep (shapeCast S9x9 x0 shapeCasts_S9x9_S9x9)
                (kerStep (shapeCast S9x9 x0 shapeCasts_S9x9_S9x9) (shapeCast S9x256000 x1 shapeCasts_S9x256000_S9x256000))))
            slices_S9x256000_o0_0_S1x256000)
          shapeCasts_S1x256000_S256000 := rfl

/-- ONE round of the kernel at entry `(j, q)` is the per-sample round of column `q`, at `j`. -/
theorem kerStep_apply (M : FVec Ideal S9x9 .f32) (x : FVec Ideal S9x256000 .f32) (j : Fin 9) (q : Fin 256000) :
    kerStep M x (ix2 j q) = kerRound (fun j k => M (ix2 j k)) (fun k => x (ix2 k q)) j := by
  unfold kerStep kerRound
  show Ideal.ofBits .f32 0x3F000000#32
        * Ideal.tanh (Ideal.ofBits .f32 0x3F000000#32
            * matmul dot_S9x9_S9x256000_S9x256000_1_0_0_1_n_n none M x (constant S9x256000 .f32 0x00000000#32) (ix2 j q))
      + Ideal.ofBits .f32 0x3F000000#32 = _
  rw [Cert.LibMatmul.matmul_zero_apply plain]

/-- The stored vector at lane `q`: feature 0 of three per-sample rounds of column `q` of the loaded block. -/
theorem pay_apply (x0 : Vec Ideal S9x9 .f32) (x1 : Vec Ideal S9x256000 .f32) (q : Fin 256000) :
    k0_pay1 x0 x1 (ix1 q)
      = kerRound (fun j k => x0 (ix2 j k)) (kerRound (fun j k => x0 (ix2 j k)) (kerRound (fun j k => x0 (ix2 j k))
          (fun k => x1 (ix2 k q)))) 0 := by
  rw [pay_eq, shapeCast_self, shapeCast_self, shapeCast_1a_a_apply,
    slice2_axis0_apply 0 _ _ (0 : Fin 1) q (0 : Fin 9) rfl, kerStep_apply]
  have h1 : (fun k => kerStep x0 (kerStep x0 x1) (ix2 k q)) = kerRound (fun j k => x0 (ix2 j k)) (fun k => kerStep x0 x1 (ix2 k q)) :=
    funext fun k => kerStep_apply x0 _ k q
  have h2 : (fun k => kerStep x0 x1 (ix2 k q)) = kerRound (fun j k => x0 (ix2 j k)) (fun k => x1 (ix2 k q)) :=
    funext fun k => kerStep_apply x0 _ k q
  rw [h1, h2]

end Cert.KernelIdeal.KerPay

end
-- ==== Proof.KerHost.lean ====
/-
  The two arrays the host writes before the region, read at an index.

  The fused matrix is `w · I + (1 - w) · S` with the identity built as "row number equals column number" (two
  iotas compared, the bit converted to a float): at `(j, k)` it is `w · [j = k] + (1 - w) · S j k`, the weight `w` being
  the one element of the second argument. The kernel's other operand is the first argument transposed to nine rows
  and zero-padded from 4000000 to 4096000 columns: at `(k, g)` with `g < 4000000` it is the argument's entry `(g, k)`
  (the padded columns are never read by the result: they are sliced off after the region).
-/
import proofs.«416986_j56925496541545_3_alg».proof.Proof.Gen.KernelIdeal.Frame
import proofs.«416986_j56925496541545_3_alg».proof.Proof.Sigmoid
import Idealize.ShloMosaic.Lib.StableHlo.Run
import Idealize.ShloMosaic.Lib.Pipeline.Value
import Idealize.ShloMosaic.Lib.ValueLayout
import Idealize.ShloMosaic.Lib.KernelVsHost

set_option maxRecDepth 16384

noncomputable section

namespace Cert.KernelIdeal.KerHost

open Cert.KernelIdeal Cert.KernelIdeal.Gen Cert.Sigmoid
open Idealize.ShloMosaic Idealize.ShloMosaic.TcCoe Idealize.SL.Sem Idealize.ShloMosaic.StableHlo Idealize.ShloMosaic.ValueIdx

variable (m : (ℓ : Loc nD τ sig) → Buf (Elt Ideal) ℓ)

/-! ## The host's terms -/

/-- The fused matrix, as the host computes it from the weight vector. -/
def fusedHost (w : FVec Ideal S1 .f32) : FVec Ideal S9x9 .f32 :=
  addf
    (mulf (broadcastInDim S9x9 ![] bcast_S_S9x9 (shapeCast S_ w shapeCasts_S1_S_))
      (uitofp .f32
        (cmpi .eq (addi (iotaInDim S9x9 32 0) (broadcastInDim S9x9 ![] bcast_S_S9x9 (constantI S_ 32 0#32)))
          (iotaInDim S9x9 32 1))))
    (mulf
      (broadcastInDim S9x9 ![] bcast_S_S9x9 (subf (constant S_ .f32 0x3F800000#32) (shapeCast S_ w shapeCasts_S1_S_)))
      (fun i => FloatOps.ofBits .f32 (lit0 (S9x9.rowMajor i))))

/-- The samples transposed to nine rows and zero-padded to the grid's 4096000 columns. -/
def paddedT (x : FVec Ideal S4000000x9 .f32) : FVec Ideal S9x4096000 .f32 :=
  pad S9x4096000 ![0, 0] ![0, 96000] ![0, 0] (transpose S9x4000000 [1, 0] x transposes_S4000000x9_S9x4000000_1_0)
    (sitofp (F := Ideal) .f32 (constantI S_ 32 0#32)) pads_S9x4000000_S9x4096000_000_0960000 h_S_

/-- The region finds the fused matrix in its first operand's array. -/
theorem V_v12 (c : Dev nD) : V m c main_v12 = fusedHost (m ((c : Thread nD τ).loc main_arg1)) := by
  dsimp only [Gen.V, Gen.V0]
  simp only [Gen.hostOps0, Gen.hostOps0_1, List.flatten_cons, List.flatten_nil, List.append_nil, List.cons_append,
    List.nil_append]
  after_results
  rfl

/-- The region finds the padded transpose in its second operand's array. -/
theorem V_v14 (c : Dev nD) : V m c main_v14 = paddedT (m ((c : Thread nD τ).loc main_arg0)) := by
  dsimp only [Gen.V, Gen.V0]
  simp only [Gen.hostOps0, Gen.hostOps0_1, List.flatten_cons, List.flatten_nil, List.append_nil, List.cons_append,
    List.nil_append]
  after_results
  rfl

/-! ## Read at an index -/

/-- The stencil's entry `(j, k)`, as the kernel's program spells its table. -/
def S9 (j k : Fin 9) : EReal := Ideal.ofBits .f32 (lit0 (S9x9.rowMajor (ix2 j k)))

/-- The indicator of the diagonal. -/
def δ (j k : Fin 9) : EReal := ((if j = k then (1 : ℝ) else 0 : ℝ) : EReal)

/-- Row number equals column number, as 32-bit words: decided over the eighty-one entries. -/
theorem iota_eq (j k : Fin 9) :
    (IntOp.cmpi .eq (IntOp.addi (BitVec.ofNat 32 j.val) 0#32) (BitVec.ofNat 32 k.val)).toNat = if j = k then 1 else 0 := by
  revert j k; decide

/-- The weight, reshaped to a scalar, at its one index. -/
theorem scalar_apply (w : FVec Ideal S1 .f32) : shapeCast S_ w shapeCasts_S1_S_ ix0 = w (ix1 0) :=
  shapeCast_apply w _ ix0 (ix1 (0 : Fin 1)) (by
    have h : (S_.rowMajor ix0).val < 1 := (S_.rowMajor ix0).isLt
    rw [Shape.rowMajor_val_one]
    show 0 = (S_.rowMajor ix0).val
    omega)

/-- The fused matrix at `(j, k)`: `w · [j = k] + (1 - w) · S j k`. -/
theorem fusedHost_apply (w : FVec Ideal S1 .f32) (j k : Fin 9) :
    fusedHost w (ix2 j k) = fused (w (ix1 0)) δ S9 j k := by
  unfold fusedHost fused δ S9
  show broadcastInDim S9x9 ![] bcast_S_S9x9 (shapeCast S_ w shapeCasts_S1_S_) (ix2 j k)
        * (((IntOp.cmpi .eq (IntOp.addi (BitVec.ofNat 32 j.val) 0#32) (BitVec.ofNat 32 k.val)).toNat : ℝ) : EReal)
      + broadcastInDim S9x9 ![] bcast_S_S9x9 (subf (constant S_ .f32 0x3F800000#32) (shapeCast S_ w shapeCasts_S1_S_)) (ix2 j k)
        * Ideal.ofBits .f32 (lit0 (S9x9.rowMajor (ix2 j k))) = _
  rw [broadcastInDim_apply _ _ _ _ ix0 (fun a => a.elim0), broadcastInDim_apply _ _ _ _ ix0 (fun a => a.elim0), iota_eq]
  show shapeCast S_ w shapeCasts_S1_S_ ix0 * _
      + (Ideal.ofBits .f32 0x3F800000#32 - shapeCast S_ w shapeCasts_S1_S_ ix0) * _ = _
  rw [scalar_apply]
  split_ifs <;> simp

/-- The padded transpose at `(k, g)`, a column of the argument's range: the argument's entry `(g, k)`. -/
theorem paddedT_apply (x : FVec Ideal S4000000x9 .f32) (k : Fin 9) (g : Fin 4096000) (hg : g.val < 4000000) :
    paddedT x (ix2 k g) = x (ix2 (⟨g.val, hg⟩ : Fin 4000000) k) := by
  unfold paddedT
  rw [pad_apply_of_inside _ _ _ _ _ _ _ (ix2 k g) (ix2 k (⟨g.val, hg⟩ : Fin 4000000)) (fun a => by
    match a with
    | ⟨0, _⟩ => show k.val = 0 + k.val * (0 + 1); omega
    | ⟨1, _⟩ => show g.val = 0 + g.val * (0 + 1); omega)]
  exact transpose_ix2_apply _ _ k _

end Cert.KernelIdeal.KerHost

end
-- ==== Proof.KerValue.lean ====
/-
  The kernel's result array, as one function of the two arguments.

  The grid has sixteen points; point `t` is given the whole fused matrix and columns `[256000 · t, 256000 · (t + 1))` of
  the padded transpose, and writes back entries `[256000 · t, 256000 · (t + 1))` of the output vector, each the
  feature 0 of three rounds of its own column. So the output array after the run is ONE function of the operands,
  `G`: entry `g` is three rounds of column `g`. The sixteen blocks tile the 4096000 entries (entry `i` lies in block
  `i / 256000`), the line after the region keeps the first 4000000, and there the column is a sample of the first
  argument and the matrix is `w · I + (1 - w) · S`.
-/
import proofs.«416986_j56925496541545_3_alg».proof.Proof.Gen.KernelIdeal.Frame
import proofs.«416986_j56925496541545_3_alg».proof.Proof.KerPay
import proofs.«416986_j56925496541545_3_alg».proof.Proof.KerHost
import Idealize.ShloMosaic.Lib.Pipeline.Value
import Idealize.ShloMosaic.Lib.StableHlo.Run

set_option maxRecDepth 16384

noncomputable section

namespace Cert.KernelIdeal.KerValue

open Cert.KernelIdeal Cert.KernelIdeal.Gen Cert.KernelIdeal.KerPay Cert.KernelIdeal.KerHost Cert.Sigmoid
open Idealize.ShloMosaic Idealize.ShloMosaic.TcCoe Idealize.SL.Sem Idealize.ShloMosaic.StableHlo Idealize.ShloMosaic.ValueIdx
open Idealize.ShloMosaic.Pipeline (Dat)

variable (m : (ℓ : Loc nD τ sig) → Buf (Elt Ideal) ℓ) (ρ : Dev nD → PrngReg)

/-! ## The whole-array function -/

/-- Feature 0 of three rounds of column `g` of `X` under the matrix `M`. -/
def col3 (M : S9x9.Idx → EReal) (X : S9x4096000.Idx → EReal) (g : Fin 4096000) : EReal :=
  kerRound (fun j k => M (ix2 j k)) (kerRound (fun j k => M (ix2 j k)) (kerRound (fun j k => M (ix2 j k))
    (fun k => X (ix2 k g)))) 0

/-- The output array: entry `i` is `col3` of column `i`. -/
def G (M : S9x9.Idx → EReal) (X : S9x4096000.Idx → EReal) : S4096000.Idx → EReal :=
  fun i => col3 M X ⟨(i 0).val, (i 0).isLt⟩

/-! ## The blocks a point is given -/

/-- Point `t`'s block of the fused matrix, -/
abbrev mblk (c : Dev nD) (t : Fin cfg0.N) : Vec Ideal S9x9 .f32 := iblk m c 0 t
/-- and of the padded transpose. -/
abbrev xblk (c : Dev nD) (t : Fin cfg0.N) : Vec Ideal S9x256000 .f32 := iblk m c 1 t

theorem hz1 : (![0] : Fin 1 → Nat) = fun _ => 0 := funext fun a => by fin_cases a; rfl
theorem hz2 : (![0, 0] : Fin 2 → Nat) = fun _ => 0 := funext fun a => by fin_cases a <;> rfl

/-- The printed index maps, decided over the grid: the matrix's block is always block `(0, 0)`; the transpose's is
    `(0, t)`; the output's is `t`. -/
theorem idx_facts : ∀ t : Fin cfg0.N, win0_0.index t (0 : Fin 2) = 0 ∧ win0_0.index t (1 : Fin 2) = 0
    ∧ win0_1.index t (0 : Fin 2) = 0 ∧ win0_1.index t (1 : Fin 2) = t.val ∧ win0_2.index t (0 : Fin 1) = t.val :=
  (by decide +kernel : ∀ t : Fin grid0.N, _)

/-- The matrix's block is the matrix. -/
theorem read0 (c : Dev nD) (t : Fin cfg0.N) (j k : Fin 9) : mblk m c t (ix2 j k) = V m c main_v12 (ix2 j k) := by
  obtain ⟨e0, e1, -, -, -⟩ := idx_facts t
  show V m c main_v12 (((cfg0.win 0).blk t).view.emb (ix2 j k)) = V m c main_v12 (ix2 j k)
  refine congrArg _ (funext fun a => Fin.ext ?_)
  match a with
  | ⟨0, _⟩ => show win0_0.index t (0 : Fin 2) * 9 + 1 * j.val = j.val; omega
  | ⟨1, _⟩ => show win0_0.index t (1 : Fin 2) * 9 + 1 * k.val = k.val; omega

/-- The transpose's block at lane `y` is the transpose's column under the output block's entry `y`. -/
theorem read1 (c : Dev nD) (t : Fin cfg0.N) (k : Fin 9) (y : S256000.Idx) :
    xblk m c t (ix2 k (y 0))
      = V m c main_v14 (ix2 k ⟨(((cfg0.win 2).blk t).view.emb y 0).val, (((cfg0.win 2).blk t).view.emb y 0).isLt⟩) := by
  obtain ⟨-, -, e2, e3, e4⟩ := idx_facts t
  show V m c main_v14 (((cfg0.win 1).blk t).view.emb (ix2 k (y 0))) = _
  refine congrArg _ (funext fun a => Fin.ext ?_)
  match a with
  | ⟨0, _⟩ => show win0_1.index t (0 : Fin 2) * 9 + 1 * k.val = k.val; omega
  | ⟨1, _⟩ =>
    show win0_1.index t (1 : Fin 2) * 256000 + 1 * (y 0).val = win0_2.index t (0 : Fin 1) * 256000 + 1 * (y 0).val
    omega

/-- The stored vector at any lane, over the lane's own coordinate. -/
theorem pay_at (x0 : Vec Ideal S9x9 .f32) (x1 : Vec Ideal S9x256000 .f32) (y : S256000.Idx) :
    k0_pay1 x0 x1 y
      = kerRound (fun j k => x0 (ix2 j k)) (kerRound (fun j k => x0 (ix2 j k)) (kerRound (fun j k => x0 (ix2 j k))
          (fun k => x1 (ix2 k (y 0))))) 0 :=
  calc k0_pay1 x0 x1 y = k0_pay1 x0 x1 (ix1 (y 0)) := congrArg (k0_pay1 x0 x1) (eq_ix1 y)
    _ = _ := pay_apply x0 x1 (y 0)

/-! ## From blocks to the array -/

/-- WHAT POINT `t` WRITES BACK is block `t` of `G` of the operand arrays as the region finds them. -/
theorem flushed_eq (c : Dev nD) (t : Fin cfg0.N) :
    (dats m 0 c).flushed 2 t = ((cfg0.win 2).blk t).view.read (Elt Ideal) (G (V m c main_v12) (V m c main_v14)) := by
  show (cfg0.win 2).cut (grid0.coords t) ((dats m 0 c).after 2 t) = _
  rw [after0_2]
  unfold out0_2
  rw [View.canon_unit_zero hz1]
  simp only [View.ld_unit_zero (S := S9x9) hz2, View.ld_unit_zero (S := S9x256000) hz2]
  funext y
  show k0_pay1 (mblk m c t) (xblk m c t) y = G (V m c main_v12) (V m c main_v14) (((cfg0.win 2).blk t).view.emb y)
  refine (pay_at (mblk m c t) (xblk m c t) y).trans ?_
  have hM : (fun j k => mblk m c t (ix2 j k)) = (fun j k => V m c main_v12 (ix2 j k)) :=
    funext fun j => funext fun k => read0 m c t j k
  have hX : (fun k => xblk m c t (ix2 k (y 0)))
      = (fun k => V m c main_v14 (ix2 k ⟨(((cfg0.win 2).blk t).view.emb y 0).val, (((cfg0.win 2).blk t).view.emb y 0).isLt⟩)) :=
    funext fun k => read1 m c t k y
  rw [hM, hX]
  rfl

/-- An entry of the output array is in point `t`'s block iff it is in the block's range. -/
theorem mem_blk (t : Fin cfg0.N) (i : S4096000.Idx) :
    i ∈ ((cfg0.win 2).blk t).view.set
      ↔ ∀ a : Fin 1, win0_2.index t a * S256000.size a ≤ (i a).val ∧ (i a).val < win0_2.index t a * S256000.size a + S256000.size a := by
  show i ∈ ((View.whole main_v15).slice (win0_2.rect t)).set ↔ _
  rw [View.set_slice_whole, Rect.mem_set_unit]
  exact Iff.rfl

/-- The sixteen blocks tile the output array: entry `i` is in block `i / 256000`. -/
theorem cover (i : S4096000.Idx) : ∃ t : Fin cfg0.N, (cfg0.win 2).flush t = true ∧ i ∈ ((cfg0.win 2).blk t).view.set := by
  have hi : (i 0).val < 4096000 := (i 0).isLt
  obtain ⟨t, ht⟩ : ∃ t : Fin cfg0.N, t.val = (i 0).val / 256000 :=
    ⟨⟨(i 0).val / 256000, by have := N_0; show _ < grid0.N; omega⟩, rfl⟩
  obtain ⟨-, -, -, -, e4⟩ := idx_facts t
  refine ⟨t, flush0_2 t, ?_⟩
  rw [mem_blk]
  intro a
  match a with
  | ⟨0, _⟩ =>
    show win0_2.index t (0 : Fin 1) * 256000 ≤ (i 0).val ∧ (i 0).val < win0_2.index t (0 : Fin 1) * 256000 + 256000
    omega

/-- THE ARRAY after the region: `G` of the operand arrays. -/
theorem final (c : Dev nD) : (dats m 0 c).arrAt 2 cfg0.N = G (V m c main_v12) (V m c main_v14) :=
  (dats m 0 c).arrAt_eq_of_cover 2 _ (fun t _ => flushed_eq m c t) cover

/-! ## The line after the region, and the run -/

/-- The result buffer after the closing slice: the first 4000000 entries of `G`. -/
theorem tail (c : Dev nD) :
    Pipeline.afterTail₀ cfgs (dats m) 0 (V0 m) [hostOps1] c main_v16
      = extractStridedSlice S4000000 ![0] (G (V m c main_v12) (V m c main_v14)) slices_S4096000_S4000000_0 := by
  unfold Pipeline.afterTail₀
  show StableHlo.after hostOps1 _ (Proc.devRef .tc main_v16) = _
  after_results
  rw [(Pipeline.withArrays_arr spec0 launch0.win.arr_inj c _ _ 2).trans (final m c)]

/-- The frame run re-posted: the result at the sliced `G` of the operands, the arguments unchanged. -/
theorem run : θ_run defs (onTc (τ := τ) (main (F := Ideal))) ⟨m, fun _ => 0, ρ⟩ fun r => ∀ c : Dev nD,
      r.2.mem ((c : Thread nD τ).loc main_v16)
          = extractStridedSlice S4000000 ![0] (G (V m c main_v12) (V m c main_v14)) slices_S4096000_S4000000_0
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨((h c).2 main_v16 (Pipeline.mem_restRefs_of main_v16 (by decide) (by decide))).trans (tail m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

/-! ## The result at one sample -/

/-- The result at sample `n`: feature 0 of three rounds of sample `n`'s nine values under `w · I + (1 - w) · S`. -/
theorem value_apply (c : Dev nD) (n : Fin 4000000) :
    extractStridedSlice S4000000 ![0] (G (V m c main_v12) (V m c main_v14)) slices_S4096000_S4000000_0 (ix1 n)
      = kerRound (fused (m ((c : Thread nD τ).loc main_arg1) (ix1 0)) δ S9)
          (kerRound (fused (m ((c : Thread nD τ).loc main_arg1) (ix1 0)) δ S9)
            (kerRound (fused (m ((c : Thread nD τ).loc main_arg1) (ix1 0)) δ S9)
              (fun k => m ((c : Thread nD τ).loc main_arg0) (ix2 n k)))) 0 := by
  have hn : n.val < 4096000 := by have := n.isLt; omega
  rw [extractStridedSlice_apply _ _ _ (ix1 n) (ix1 (⟨n.val, hn⟩ : Fin 4096000)) (fun a => by
    match a with
    | ⟨0, _⟩ => show n.val = 0 + n.val; omega)]
  show col3 (V m c main_v12) (V m c main_v14) ⟨n.val, hn⟩ = _
  unfold col3
  rw [V_v12, V_v14]
  have hM : (fun j k => fusedHost (m ((c : Thread nD τ).loc main_arg1)) (ix2 j k))
      = fused (m ((c : Thread nD τ).loc main_arg1) (ix1 0)) δ S9 :=
    funext fun j => funext fun k => fusedHost_apply _ j k
  have hX : (fun k => paddedT (m ((c : Thread nD τ).loc main_arg0)) (ix2 k (⟨n.val, hn⟩ : Fin 4096000)))
      = (fun k => m ((c : Thread nD τ).loc main_arg0) (ix2 n k)) :=
    funext fun k => paddedT_apply _ k ⟨n.val, hn⟩ n.isLt
  rw [hM, hX]

end Cert.KernelIdeal.KerValue

end
-- ==== Proof.RefRun.lean ====
/-
  The reference's run. Its @main is a straight line of 63 host operations: three times the same twenty (the
  neighbour means `x · Sᵀ` by a `dot_general` against the transposed stencil, the convex combination with the weight
  `w` and `1 - w`, and the logistic function spelt `1 / (1 + exp (-z))`), then column 0 sliced out and reshaped to a
  vector. Every weakly fair execution terminates with the result at that composed term of the two arguments, which
  are left as they were. The twenty operations of a round are carried as ONE function, `refStep`, and the closing
  slice as `firstColumn`, so that the result reads `firstColumn (refStep w (refStep w (refStep w x)))`.
-/
import proofs.«416986_j56925496541545_3_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 63 operations, in order. -/
abbrev ops : List (HloOp τ sig (Elt F)) :=
  [ nullary main_cst (fun i => FloatOps.ofBits .f32 (lit0 (S9x9.rowMajor i))),
    unary main_cst main_v0 ((transpose S9x9 [1, 0] · transposes_S9x9_S9x9_1_0) : (⟨S9x9, .f32⟩ : BufTy).Contents (Elt F) → (⟨S9x9, .f32⟩ : BufTy).Contents (Elt F)),
    binary main_arg0 main_v0 main_v1 ((fun l r => Host.dotGeneral dot_S4000000x9_S9x9_S4000000x9_1_0_0_1_n_n none l r) : (⟨S4000000x9, .f32⟩ : BufTy).Contents (Elt F) → (⟨S9x9, .f32⟩ : BufTy).Contents (Elt F) → (⟨S4000000x9, .f32⟩ : BufTy).Contents (Elt F)),
    unary main_arg1 main_v2 (broadcastInDim S1x1 ![1] bcast_S1_S1x1_1 : (⟨S1, .f32⟩ : BufTy).Contents (Elt F) → (⟨S1x1, .f32⟩ : BufTy).Contents (Elt F)),
    unary main_v2 main_v3 (broadcastInDim S4000000x9 ![0, 1] bcast_S1x1_S4000000x9_0_1 : (⟨S1x1, .f32⟩ : BufTy).Contents (Elt F) → (⟨S4000000x9, .f32⟩ : BufTy).Contents (Elt F)),
    binary main_v3 main_arg0 main_v4 (mulf : (⟨S4000000x9, .f32⟩ : BufTy).Contents (Elt F) → (⟨S4000000x9, .f32⟩ : BufTy).Contents (Elt F) → (⟨S4000000x9, .f32⟩ : BufTy).Contents (Elt F)),
    nullary main_cst_0 (constant S_ .f32 0x3F800000#32),
    unary main_cst_0 main_v5 (broadcastInDim S1 ![] bcast_S_S1 : (⟨S_, .f32⟩ : BufTy).Contents (Elt F) → (⟨S1, .f32⟩ : BufTy).Contents (Elt F)),
    binary main_v5 main_arg1 main_v6 (subf : (⟨S1, .f32⟩ : BufTy).Contents (Elt F) → (⟨S1, .f32⟩ : BufTy).Contents (Elt F) → (⟨S1, .f32⟩ : BufTy).Contents (Elt F)),
    unary main_v6 main_v7 (broadcastInDim S1x1 ![1] bcast_S1_S1x1_1 : (⟨S1, .f32⟩ : BufTy).Contents (Elt F) → (⟨S1x1, .f32⟩ : BufTy).Contents (Elt F)),
    unary main_v7 main_v8 (broadcastInDim S4000000x9 ![0, 1] bcast_S1x1_S4000000x9_0_1 : (⟨S1x1, .f32⟩ : BufTy).Contents (Elt F) → (⟨S4000000x9, .f32⟩ : BufTy).Contents (Elt F)),
    binary main_v8 main_v1 main_v9 (mulf : (⟨S4000000x9, .f32⟩ : BufTy).Contents (Elt F) → (⟨S4000000x9, .f32⟩ : BufTy).Contents (Elt F) → (⟨S4000000x9, .f32⟩ : BufTy).Contents (Elt F)),
    binary main_v4 main_v9 main_v10 (addf : (⟨S4000000x9, .f32⟩ : BufTy).Contents (Elt F) → (⟨S4000000x9, .f32⟩ : BufTy).Contents (Elt F) → (⟨S4000000x9, .f32⟩ : BufTy).Contents (Elt F)),
    unary main_v10 main_v11 (Host.negf : (⟨S4000000x9, .f32⟩ : BufTy).Contents (Elt F) → (⟨S4000000x9, .f32⟩ : BufTy).Contents (Elt F)),
    unary main_v11 main_v12 (Host.exp : (⟨S4000000x9, .f32⟩ : BufTy).Contents (Elt F) → (⟨S4000000x9, .f32⟩ : BufTy).Contents (Elt F)),
    nullary main_cst_1 (constant S_ .f32 0x3F800000#32),
    unary main_cst_1 main_v13 (broadcastInDim S4000000x9 ![] bcast_S_S4000000x9 : (⟨S_, .f32⟩ : BufTy).Contents (Elt F) → (⟨S4000000x9, .f32⟩ : BufTy).Contents (Elt F)),
    binary main_v13 main_v12 main_v14 (addf : (⟨S4000000x9, .f32⟩ : BufTy).Contents (Elt F) → (⟨S4000000x9, .f32⟩ : BufTy).Contents (Elt F) → (⟨S4000000x9, .f32⟩ : BufTy).Contents (Elt F)),
    nullary main_cst_2 (constant S_ .f32 0x3F800000#32),
    unary main_cst_2 main_v15 (broadcastInDim S4000000x9 ![] bcast_S_S4000000x9 : (⟨S_, .f32⟩ : BufTy).Contents (Elt F) → (⟨S4000000x9, .f32⟩ : BufTy).Contents (Elt F)),
    binary main_v15 main_v14 main_v16 (Host.divf : (⟨S4000000x9, .f32⟩ : BufTy).Contents (Elt F) → (⟨S4000000x9, .f32⟩ : BufTy).Contents (Elt F) → (⟨S4000000x9, .f32⟩ : BufTy).Contents (Elt F)),
    unary main_cst main_v17 ((transpose S9x9 [1, 0] · transposes_S9x9_S9x9_1_0) : (⟨S9x9, .f32⟩ : BufTy).Contents (Elt F) → (⟨S9x9, .f32⟩ : BufTy).Contents (Elt F)),
    binary main_v16 main_v17 main_v18 ((fun l r => Host.dotGeneral dot_S4000000x9_S9x9_S4000000x9_1_0_0_1_n_n none l r) : (⟨S4000000x9, .f32⟩ : BufTy).Contents (Elt F) → (⟨S9x9, .f32⟩ : BufTy).Contents (Elt F) → (⟨S4000000x9, .f32⟩ : BufTy).Contents (Elt F)),
    unary main_arg1 main_v19 (broadcastInDim S1x1 ![1] bcast_S1_S1x1_1 : (⟨S1, .f32⟩ : BufTy).Contents (Elt F) → (⟨S1x1, .f32⟩ : BufTy).Contents (Elt F)),
    unary main_v19 main_v20 (broadcastInDim S4000000x9 ![0, 1] bcast_S1x1_S4000000x9_0_1 : (⟨S1x1, .f32⟩ : BufTy).Contents (Elt F) → (⟨S4000000x9, .f32⟩ : BufTy).Contents (Elt F)),
    binary main_v20 main_v16 main_v21 (mulf : (⟨S4000000x9, .f32⟩ : BufTy).Contents (Elt F) → (⟨S4000000x9, .f32⟩ : BufTy).Contents (Elt F) → (⟨S4000000x9, .f32⟩ : BufTy).Contents (Elt F)),
    nullary main_cst_3 (constant S_ .f32 0x3F800000#32),
    unary main_cst_3 main_v22 (broadcastInDim S1 ![] bcast_S_S1 : (⟨S_, .f32⟩ : BufTy).Contents (Elt F) → (⟨S1, .f32⟩ : BufTy).Contents (Elt F)),
    binary main_v22 main_arg1 main_v23 (subf : (⟨S1, .f32⟩ : BufTy).Contents (Elt F) → (⟨S1, .f32⟩ : BufTy).Contents (Elt F) → (⟨S1, .f32⟩ : BufTy).Contents (Elt F)),
    unary main_v23 main_v24 (broadcastInDim S1x1 ![1] bcast_S1_S1x1_1 : (⟨S1, .f32⟩ : BufTy).Contents (Elt F) → (⟨S1x1, .f32⟩ : BufTy).Contents (Elt F)),
    unary main_v24 main_v25 (broadcastInDim S4000000x9 ![0, 1] bcast_S1x1_S4000000x9_0_1 : (⟨S1x1, .f32⟩ : BufTy).Contents (Elt F) → (⟨S4000000x9, .f32⟩ : BufTy).Contents (Elt F)),
    binary main_v25 main_v18 main_v26 (mulf : (⟨S4000000x9, .f32⟩ : BufTy).Contents (Elt F) → (⟨S4000000x9, .f32⟩ : BufTy).Contents (Elt F) → (⟨S4000000x9, .f32⟩ : BufTy).Contents (Elt F)),
    binary main_v21 main_v26 main_v27 (addf : (⟨S4000000x9, .f32⟩ : BufTy).Contents (Elt F) → (⟨S4000000x9, .f32⟩ : BufTy).Contents (Elt F) → (⟨S4000000x9, .f32⟩ : BufTy).Contents (Elt F)),
    unary main_v27 main_v28 (Host.negf : (⟨S4000000x9, .f32⟩ : BufTy).Contents (Elt F) → (⟨S4000000x9, .f32⟩ : BufTy).Contents (Elt F)),
    unary main_v28 main_v29 (Host.exp : (⟨S4000000x9, .f32⟩ : BufTy).Contents (Elt F) → (⟨S4000000x9, .f32⟩ : BufTy).Contents (Elt F)),
    nullary main_cst_4 (constant S_ .f32 0x3F800000#32),
    unary main_cst_4 main_v30 (broadcastInDim S4000000x9 ![] bcast_S_S4000000x9 : (⟨S_, .f32⟩ : BufTy).Contents (Elt F) → (⟨S4000000x9, .f32⟩ : BufTy).Contents (Elt F)),
    binary main_v30 main_v29 main_v31 (addf : (⟨S4000000x9, .f32⟩ : BufTy).Contents (Elt F) → (⟨S4000000x9, .f32⟩ : BufTy).Contents (Elt F) → (⟨S4000000x9, .f32⟩ : BufTy).Contents (Elt F)),
    nullary main_cst_5 (constant S_ .f32 0x3F800000#32),
    unary main_cst_5 main_v32 (broadcastInDim S4000000x9 ![] bcast_S_S4000000x9 : (⟨S_, .f32⟩ : BufTy).Contents (Elt F) → (⟨S4000000x9, .f32⟩ : BufTy).Contents (Elt F)),
    binary main_v32 main_v31 main_v33 (Host.divf : (⟨S4000000x9, .f32⟩ : BufTy).Contents (Elt F) → (⟨S4000000x9, .f32⟩ : BufTy).Contents (Elt F) → (⟨S4000000x9, .f32⟩ : BufTy).Contents (Elt F)),
    unary main_cst main_v34 ((transpose S9x9 [1, 0] · transposes_S9x9_S9x9_1_0) : (⟨S9x9, .f32⟩ : BufTy).Contents (Elt F) → (⟨S9x9, .f32⟩ : BufTy).Contents (Elt F)),
    binary main_v33 main_v34 main_v35 ((fun l r => Host.dotGeneral dot_S4000000x9_S9x9_S4000000x9_1_0_0_1_n_n none l r) : (⟨S4000000x9, .f32⟩ : BufTy).Contents (Elt F) → (⟨S9x9, .f32⟩ : BufTy).Contents (Elt F) → (⟨S4000000x9, .f32⟩ : BufTy).Contents (Elt F)),
    unary main_arg1 main_v36 (broadcastInDim S1x1 ![1] bcast_S1_S1x1_1 : (⟨S1, .f32⟩ : BufTy).Contents (Elt F) → (⟨S1x1, .f32⟩ : BufTy).Contents (Elt F)),
    unary main_v36 main_v37 (broadcastInDim S4000000x9 ![0, 1] bcast_S1x1_S4000000x9_0_1 : (⟨S1x1, .f32⟩ : BufTy).Contents (Elt F) → (⟨S4000000x9, .f32⟩ : BufTy).Contents (Elt F)),
    binary main_v37 main_v33 main_v38 (mulf : (⟨S4000000x9, .f32⟩ : BufTy).Contents (Elt F) → (⟨S4000000x9, .f32⟩ : BufTy).Contents (Elt F) → (⟨S4000000x9, .f32⟩ : BufTy).Contents (Elt F)),
    nullary main_cst_6 (constant S_ .f32 0x3F800000#32),
    unary main_cst_6 main_v39 (broadcastInDim S1 ![] bcast_S_S1 : (⟨S_, .f32⟩ : BufTy).Contents (Elt F) → (⟨S1, .f32⟩ : BufTy).Contents (Elt F)),
    binary main_v39 main_arg1 main_v40 (subf : (⟨S1, .f32⟩ : BufTy).Contents (Elt F) → (⟨S1, .f32⟩ : BufTy).Contents (Elt F) → (⟨S1, .f32⟩ : BufTy).Contents (Elt F)),
    unary main_v40 main_v41 (broadcastInDim S1x1 ![1] bcast_S1_S1x1_1 : (⟨S1, .f32⟩ : BufTy).Contents (Elt F) → (⟨S1x1, .f32⟩ : BufTy).Contents (Elt F)),
    unary main_v41 main_v42 (broadcastInDim S4000000x9 ![0, 1] bcast_S1x1_S4000000x9_0_1 : (⟨S1x1, .f32⟩ : BufTy).Contents (Elt F) → (⟨S4000000x9, .f32⟩ : BufTy).Contents (Elt F)),
    binary main_v42 main_v35 main_v43 (mulf : (⟨S4000000x9, .f32⟩ : BufTy).Contents (Elt F) → (⟨S4000000x9, .f32⟩ : BufTy).Contents (Elt F) → (⟨S4000000x9, .f32⟩ : BufTy).Contents (Elt F)),
    binary main_v38 main_v43 main_v44 (addf : (⟨S4000000x9, .f32⟩ : BufTy).Contents (Elt F) → (⟨S4000000x9, .f32⟩ : BufTy).Contents (Elt F) → (⟨S4000000x9, .f32⟩ : BufTy).Contents (Elt F)),
    unary main_v44 main_v45 (Host.negf : (⟨S4000000x9, .f32⟩ : BufTy).Contents (Elt F) → (⟨S4000000x9, .f32⟩ : BufTy).Contents (Elt F)),
    unary main_v45 main_v46 (Host.exp : (⟨S4000000x9, .f32⟩ : BufTy).Contents (Elt F) → (⟨S4000000x9, .f32⟩ : BufTy).Contents (Elt F)),
    nullary main_cst_7 (constant S_ .f32 0x3F800000#32),
    unary main_cst_7 main_v47 (broadcastInDim S4000000x9 ![] bcast_S_S4000000x9 : (⟨S_, .f32⟩ : BufTy).Contents (Elt F) → (⟨S4000000x9, .f32⟩ : BufTy).Contents (Elt F)),
    binary main_v47 main_v46 main_v48 (addf : (⟨S4000000x9, .f32⟩ : BufTy).Contents (Elt F) → (⟨S4000000x9, .f32⟩ : BufTy).Contents (Elt F) → (⟨S4000000x9, .f32⟩ : BufTy).Contents (Elt F)),
    nullary main_cst_8 (constant S_ .f32 0x3F800000#32),
    unary main_cst_8 main_v49 (broadcastInDim S4000000x9 ![] bcast_S_S4000000x9 : (⟨S_, .f32⟩ : BufTy).Contents (Elt F) → (⟨S4000000x9, .f32⟩ : BufTy).Contents (Elt F)),
    binary main_v49 main_v48 main_v50 (Host.divf : (⟨S4000000x9, .f32⟩ : BufTy).Contents (Elt F) → (⟨S4000000x9, .f32⟩ : BufTy).Contents (Elt F) → (⟨S4000000x9, .f32⟩ : BufTy).Contents (Elt F)),
    unary main_v50 main_v51 ((extractStridedSlice S4000000x1 ![0, 0] · slices_S4000000x9_S4000000x1_0_0) : (⟨S4000000x9, .f32⟩ : BufTy).Contents (Elt F) → (⟨S4000000x1, .f32⟩ : BufTy).Contents (Elt F)),
    reshape main_v51 main_v52 rfl shapeCasts_S4000000x1_S4000000 ]

set_option maxRecDepth 8192 in
set_option maxHeartbeats 4000000 in
/-- @main, printed in two windows, is that line of operations. -/
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., unary_bufs_sub .., reshape_bufs_sub ..⟩

/-! ## One round, and the closing slice, as functions of the arrays -/

/-- The stencil, as the reference's literal table spells it. -/
def stencil : FVec F S9x9 .f32 := fun i => FloatOps.ofBits .f32 (lit0 (S9x9.rowMajor i))

/-- ONE round of the reference on the whole array: `1 / (1 + exp (-(w · x + (1 - w) · (x · Sᵀ))))`, the weight and its
    complement broadcast over every sample and feature. -/
def refStep (w : FVec F S1 .f32) (x : FVec F S4000000x9 .f32) : FVec F S4000000x9 .f32 :=
  Host.divf (broadcastInDim S4000000x9 ![] bcast_S_S4000000x9 (constant S_ .f32 0x3F800000#32))
    (addf (broadcastInDim S4000000x9 ![] bcast_S_S4000000x9 (constant S_ .f32 0x3F800000#32))
      (Host.exp
        (Host.negf
          (addf
            (mulf
              (broadcastInDim S4000000x9 ![0, 1] bcast_S1x1_S4000000x9_0_1 (broadcastInDim S1x1 ![1] bcast_S1_S1x1_1 w))
              x)
            (mulf
              (broadcastInDim S4000000x9 ![0, 1] bcast_S1x1_S4000000x9_0_1
                (broadcastInDim S1x1 ![1] bcast_S1_S1x1_1
                  (subf (broadcastInDim S1 ![] bcast_S_S1 (constant S_ .f32 0x3F800000#32)) w)))
              (Host.dotGeneral dot_S4000000x9_S9x9_S4000000x9_1_0_0_1_n_n none x
                (transpose S9x9 [1, 0] stencil transposes_S9x9_S9x9_1_0)))))))

/-- Feature 0 of every sample, as a vector. -/
def firstColumn (y : FVec F S4000000x9 .f32) : FVec F S4000000 .f32 :=
  shapeCast S4000000 (extractStridedSlice S4000000x1 ![0, 0] y slices_S4000000x9_S4000000x1_0_0) shapeCasts_S4000000x1_S4000000

/-! ## The run -/

set_option maxRecDepth 8192 in
set_option maxHeartbeats 25600000 in
/-- On every device, for any float values, from any memory with zero counters: every weakly fair execution of
    @main terminates with the result at feature 0 of three rounds of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v52)
          = firstColumn (refStep (m ((c.tc : Thread nD τ).loc main_arg1))
              (refStep (m ((c.tc : Thread nD τ).loc main_arg1))
                (refStep (m ((c.tc : Thread nD τ).loc main_arg1)) (m ((c.tc : Thread nD τ).loc main_arg0)))))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v52).trans (by after_results_simp; rfl),
      (h c main_arg0).trans (by after_results_simp),
      (h c main_arg1).trans (by after_results_simp)⟩)
    (run_seq scopedRefs_eq scopedSems_eq defs main (fun _ => ops) main_eq (fun _ => ops_sub) m ρ)

end Cert.ReferenceIdeal.RefRun

end
-- ==== Proof.RefRead.lean ====
/-
  The reference's result, read at one sample.

  One round of the reference at entry `(n, j)` depends on sample `n`'s nine values only: the broadcast weight is
  `w 0` everywhere, the broadcast constant is `1`, and the `dot_general` against the transposed stencil is
  `∑ k, x (n, k) · S j k`. So the round on the array is the per-sample round `Sigmoid.refRound` on each row, and the
  program's result at `n` is feature 0 of three per-sample rounds of row `n`.
-/
import proofs.«416986_j56925496541545_3_alg».proof.Proof.RefRun
import proofs.«416986_j56925496541545_3_alg».proof.Proof.LibMatmul
import proofs.«416986_j56925496541545_3_alg».proof.Proof.Sigmoid
import Idealize.ShloMosaic.Lib.Pipeline.Value
import Idealize.ShloMosaic.Lib.ValueLayout

noncomputable section

namespace Cert.ReferenceIdeal.RefRead

open Cert.ReferenceIdeal Cert.ReferenceIdeal.Gen Cert.ReferenceIdeal.RefRun Cert.Sigmoid
open Idealize.ShloMosaic Idealize.ShloMosaic.ValueIdx

/-- The stencil's entry `(j, k)`: the weight of value `k` in the neighbour mean at position `j`. -/
def S9 (j k : Fin 9) : EReal := Ideal.ofBits .f32 (lit0 (S9x9.rowMajor (ix2 j k)))

/-- The reference's `dot_general` is a plain matrix product `[4000000, 9] × [9, 9]`. -/
theorem plain : Cert.LibMatmul.Plain dot_S4000000x9_S9x9_S4000000x9_1_0_0_1_n_n := ⟨rfl, rfl, rfl, rfl, rfl, rfl⟩

/-- A scalar constant broadcast over the array is that constant at every entry. -/
theorem bcast_const_apply (b : BitVec 32) (i : S4000000x9.Idx) :
    broadcastInDim S4000000x9 ![] bcast_S_S4000000x9 (constant (F := Ideal) S_ .f32 b) i = Ideal.ofBits .f32 b :=
  broadcastInDim_apply _ _ _ _ ix0 (fun a => a.elim0)

/-- A one-element vector broadcast over the array, through `[1, 1]`, is its element at every entry. -/
theorem bcast_vec_apply (u : FVec Ideal S1 .f32) (i : S4000000x9.Idx) :
    broadcastInDim S4000000x9 ![0, 1] bcast_S1x1_S4000000x9_0_1 (broadcastInDim S1x1 ![1] bcast_S1_S1x1_1 u) i = u (ix1 0) := by
  rw [broadcastInDim_apply _ _ _ _ (ix2 (0 : Fin 1) (0 : Fin 1)) (fun a => by match a with | ⟨0, _⟩ => rfl | ⟨1, _⟩ => rfl)]
  exact broadcastInDim_apply _ _ _ _ (ix1 (0 : Fin 1)) (fun a => by match a with | ⟨0, _⟩ => rfl)

/-- The complement of the weight, `1 - w`, at its one index. -/
theorem compl_apply (w : FVec Ideal S1 .f32) :
    subf (broadcastInDim S1 ![] bcast_S_S1 (constant (F := Ideal) S_ .f32 0x3F800000#32)) w (ix1 0)
      = Ideal.ofBits .f32 0x3F800000#32 - w (ix1 0) := by
  show broadcastInDim S1 ![] bcast_S_S1 (constant (F := Ideal) S_ .f32 0x3F800000#32) (ix1 0) - w (ix1 0) = _
  rw [broadcastInDim_apply _ _ _ _ ix0 (fun a => a.elim0)]
  rfl

/-- The neighbour means: the product with the transposed stencil at `(n, j)` is `∑ k, x (n, k) · S j k`. -/
theorem nbr_apply (x : FVec Ideal S4000000x9 .f32) (n : Fin 4000000) (j : Fin 9) :
    Host.dotGeneral dot_S4000000x9_S9x9_S4000000x9_1_0_0_1_n_n none x
        (transpose S9x9 [1, 0] (stencil (F := Ideal)) transposes_S9x9_S9x9_1_0) (ix2 n j)
      = ∑ k : Fin 9, x (ix2 n k) * S9 j k := by
  rw [Cert.LibMatmul.dotGeneral_apply plain]
  refine Finset.sum_congr rfl fun k _ => ?_
  rw [transpose_ix2_apply]
  rfl

/-- ONE round of the reference at entry `(n, j)` is the per-sample round of row `n`, at `j`. -/
theorem refStep_apply (w : FVec Ideal S1 .f32) (x : FVec Ideal S4000000x9 .f32) (n : Fin 4000000) (j : Fin 9) :
    refStep w x (ix2 n j) = refRound (w (ix1 0)) S9 (fun k => x (ix2 n k)) j := by
  unfold refStep refRound
  simp only [Host.divf, Host.exp, Host.negf, addf, mulf, Ideal.hostDivf_def, Ideal.hostUnary_exp_def, Ideal.hostNegf_def,
    Ideal.negf_def, Ideal.addf_def, Ideal.mulf_def]
  rw [bcast_const_apply, bcast_vec_apply, bcast_vec_apply, compl_apply, nbr_apply]

/-- Feature 0 of every sample: the closing slice and reshape read at `n`. -/
theorem firstColumn_apply (y : FVec Ideal S4000000x9 .f32) (n : Fin 4000000) :
    firstColumn y (ix1 n) = y (ix2 n (0 : Fin 9)) := by
  unfold firstColumn
  rw [shapeCast_apply _ _ _ (ix2 n (0 : Fin 1)) (by
    rw [Shape.rowMajor_val_two, Shape.rowMajor_val_one]
    show n.val * 1 + 0 = n.val
    omega)]
  exact slice2_axis1_apply 0 y _ n (0 : Fin 1) (0 : Fin 9) rfl

/-- The reference's result at sample `n`: feature 0 of three per-sample rounds of row `n`. -/
theorem result_apply (w : FVec Ideal S1 .f32) (x : FVec Ideal S4000000x9 .f32) (n : Fin 4000000) :
    firstColumn (refStep w (refStep w (refStep w x))) (ix1 n)
      = refRound (w (ix1 0)) S9 (refRound (w (ix1 0)) S9 (refRound (w (ix1 0)) S9 (fun k => x (ix2 n k)))) 0 := by
  rw [firstColumn_apply, refStep_apply]
  have h1 : (fun k => refStep w (refStep w x) (ix2 n k)) = refRound (w (ix1 0)) S9 (fun k => refStep w x (ix2 n k)) :=
    funext fun k => refStep_apply w _ n k
  have h2 : (fun k => refStep w x (ix2 n k)) = refRound (w (ix1 0)) S9 (fun k => x (ix2 n k)) :=
    funext fun k => refStep_apply w _ n k
  rw [h1, h2]

end Cert.ReferenceIdeal.RefRead

end
-- ==== Proof.Finite.lean ====
/-
  What the precondition says: every entry of the two argument arrays is a real number.

  The printed predicate is `all (|x| < +∞) ∧ all (|w| < +∞)`. An extended real whose absolute value is strictly
  below `+∞` is neither infinity (at `⊥` and at `⊤` the absolute value is `⊤`), so it is a real.
-/
import proofs.«416986_j56925496541545_3_alg».proof.Proof.Gen.Pre_finite_inputs
import Idealize.ShloMosaic.Lib.ReduceAll
import Idealize.ShloMosaic.Lib.ValueIdx
import Idealize.ShloMosaic.PureOps.Ideal

noncomputable section

namespace Cert.Pre_finite_inputs.Finite

open Cert.Pre_finite_inputs Cert.Pre_finite_inputs.Gen
open Idealize.ShloMosaic Idealize.ShloMosaic.ValueIdx

/-- The rank-zero shape has one index. -/
instance : Subsingleton S_.Idx := ⟨fun _ _ => funext fun d => d.elim0⟩

/-- The pattern of `+inf` denotes `⊤`. -/
theorem ofBits_inf : Ideal.ofBits .f32 0x7F800000#32 = ⊤ := by
  simp [Ideal.ofBits, Ideal.ieee]

/-- An extended real whose absolute value is below `+∞` is a real. -/
theorem real_of_abs_lt (x : EReal)
    (h : BitVec.ofBool (decide (max x (-x) < Ideal.ofBits .f32 0x7F800000#32)) = 1#1) : ∃ r : ℝ, x = (r : EReal) := by
  rw [ofBits_inf] at h
  induction x using EReal.rec with
  | bot => simp at h
  | top => simp at h
  | coe r => exact ⟨r, rfl⟩

/-- Under the precondition every entry of both arguments is a real. -/
theorem reals_of_pre {x : FVec Ideal S4000000x9 .f32} {w : FVec Ideal S1 .f32}
    (h : fn (F := Ideal) x w = fun _ => 1#1) :
    (∀ i, ∃ r : ℝ, x i = (r : EReal)) ∧ (∀ i, ∃ r : ℝ, w i = (r : EReal)) := by
  have h0 := congrFun h ix0
  dsimp only [fn] at h0
  change IntOp.andi _ _ = 1#1 at h0
  obtain ⟨hx, hw⟩ := IntOp.andi_eq_one.1 h0
  exact ⟨fun i => real_of_abs_lt (x i) (Host.reduce_andi_all _ _ _ _ _ hx i),
    fun i => real_of_abs_lt (w i) (Host.reduce_andi_all _ _ _ _ _ hw i)⟩

end Cert.Pre_finite_inputs.Finite

end
-- ==== Proof.Bridge.lean ====
/-
  The two results are one function of the arguments.

  At sample `n` the kernel's result is feature 0 of three rounds `v ↦ ½ · tanh (½ · (M · v)) + ½` of the sample's nine
  values under `M = w · I + (1 - w) · S`, and the reference's is feature 0 of three rounds
  `v ↦ 1 / (1 + exp (-(w · v + (1 - w) · (S · v))))`. Under the precondition the nine values and the weight are reals,
  and the stencil's entries are reals (none of its patterns has an all-ones exponent); on reals the two rounds agree
  (`Sigmoid.kerRound_coe`, `Sigmoid.refRound_coe`: distributivity, and the logistic function through the hyperbolic
  tangent) and return reals, so the three rounds agree.
-/
import proofs.«416986_j56925496541545_3_alg».proof.Proof.KerValue
import proofs.«416986_j56925496541545_3_alg».proof.Proof.RefRead
import proofs.«416986_j56925496541545_3_alg».proof.Proof.Finite

set_option maxRecDepth 16384

noncomputable section

namespace Cert.Bridge

open Cert.Sigmoid
open Idealize.ShloMosaic Idealize.ShloMosaic.TcCoe Idealize.SL.Sem Idealize.ShloMosaic.ValueIdx

/-- Three rounds agree on reals. -/
theorem rounds_eq (w : ℝ) (S : Fin 9 → Fin 9 → ℝ) (v : Fin 9 → ℝ) :
    kerRound (fused (w : EReal) (fun j k => ((if j = k then (1 : ℝ) else 0 : ℝ) : EReal)) (fun j k => (S j k : EReal)))
        (kerRound (fused (w : EReal) (fun j k => ((if j = k then (1 : ℝ) else 0 : ℝ) : EReal)) (fun j k => (S j k : EReal)))
          (kerRound (fused (w : EReal) (fun j k => ((if j = k then (1 : ℝ) else 0 : ℝ) : EReal)) (fun j k => (S j k : EReal)))
            (fun k => (v k : EReal))))
      = refRound (w : EReal) (fun j k => (S j k : EReal))
          (refRound (w : EReal) (fun j k => (S j k : EReal))
            (refRound (w : EReal) (fun j k => (S j k : EReal)) (fun k => (v k : EReal)))) := by
  rw [kerRound_coe, kerRound_coe, kerRound_coe, refRound_coe, refRound_coe, refRound_coe]

/-- The two programs spell the same stencil table, word by word. -/
theorem lit_eq : ∀ q : Fin 81, Cert.ReferenceIdeal.lit0 q = Cert.KernelIdeal.lit0 q := by decide

/-- No word of the table has an all-ones exponent field: every entry denotes a real. -/
theorem lit_exp : ∀ q : Fin 81, ((Cert.KernelIdeal.lit0 q).extractLsb' 23 8).toNat ≠ 255 := by decide

/-- The reference's stencil entries are the kernel's. -/
theorem S9_eq (j k : Fin 9) : Cert.ReferenceIdeal.RefRead.S9 j k = Cert.KernelIdeal.KerHost.S9 j k :=
  congrArg (Ideal.ofBits .f32) (lit_eq _)

/-- The stencil's entries are reals. -/
theorem S9_real (j k : Fin 9) : ∃ r : ℝ, Cert.KernelIdeal.KerHost.S9 j k = (r : EReal) :=
  ofBits_f32_real _ (lit_exp _)

/-- THE BRIDGE: under the precondition the kernel's result array is the reference's result term of the same
    arguments. -/
theorem result_eq (m : (ℓ : Loc Cert.KernelIdeal.nD Cert.KernelIdeal.τ Cert.KernelIdeal.sig) → Buf (Elt Ideal) ℓ)
    (c : Dev Cert.KernelIdeal.nD)
    (hpre : Cert.Pre_finite_inputs.fn (F := Ideal)
        (m ((c : Thread Cert.KernelIdeal.nD Cert.KernelIdeal.τ).loc Cert.KernelIdeal.main_arg0))
        (m ((c : Thread Cert.KernelIdeal.nD Cert.KernelIdeal.τ).loc Cert.KernelIdeal.main_arg1)) = fun _ => 1#1) :
    Cert.ReferenceIdeal.RefRun.firstColumn (F := Ideal)
        (Cert.ReferenceIdeal.RefRun.refStep (F := Ideal) (m ((c : Thread Cert.KernelIdeal.nD Cert.KernelIdeal.τ).loc Cert.KernelIdeal.main_arg1))
          (Cert.ReferenceIdeal.RefRun.refStep (F := Ideal) (m ((c : Thread Cert.KernelIdeal.nD Cert.KernelIdeal.τ).loc Cert.KernelIdeal.main_arg1))
            (Cert.ReferenceIdeal.RefRun.refStep (F := Ideal) (m ((c : Thread Cert.KernelIdeal.nD Cert.KernelIdeal.τ).loc Cert.KernelIdeal.main_arg1))
              (m ((c : Thread Cert.KernelIdeal.nD Cert.KernelIdeal.τ).loc Cert.KernelIdeal.main_arg0)))))
      = extractStridedSlice Cert.KernelIdeal.S4000000 ![0]
          (Cert.KernelIdeal.KerValue.G (Cert.KernelIdeal.Gen.V m c Cert.KernelIdeal.main_v12)
            (Cert.KernelIdeal.Gen.V m c Cert.KernelIdeal.main_v14))
          Cert.KernelIdeal.Facts₀.slices_S4096000_S4000000_0 := by
  obtain ⟨hx, hw⟩ := Cert.Pre_finite_inputs.Finite.reals_of_pre hpre
  choose xr hxr using hx
  choose wr hwr using hw
  choose Sr hSr using S9_real
  funext i
  obtain ⟨n, rfl⟩ : ∃ n : Fin 4000000, i = ix1 n := ⟨i 0, eq_ix1 i⟩
  rw [Cert.KernelIdeal.KerValue.value_apply, Cert.ReferenceIdeal.RefRead.result_apply]
  have hS : Cert.KernelIdeal.KerHost.S9 = fun j k => (Sr j k : EReal) := funext fun j => funext fun k => hSr j k
  have hS' : Cert.ReferenceIdeal.RefRead.S9 = fun j k => (Sr j k : EReal) :=
    funext fun j => funext fun k => (S9_eq j k).trans (hSr j k)
  have hδ : Cert.KernelIdeal.KerHost.δ = fun j k => ((if j = k then (1 : ℝ) else 0 : ℝ) : EReal) := rfl
  have hv : (fun k : Fin 9 => m ((c : Thread Cert.KernelIdeal.nD Cert.KernelIdeal.τ).loc Cert.KernelIdeal.main_arg0) (ix2 n k))
      = fun k => ((xr (ix2 n k) : ℝ) : EReal) := funext fun k => hxr (ix2 n k)
  rw [hS, hS', hδ, hv, hwr (ix1 0)]
  exact congrFun (rounds_eq (wr (ix1 0)) Sr (fun k => xr (ix2 n k))).symm 0

end Cert.Bridge

end
-- ==== Proof.lean ====
/-
  Three rounds of "neighbour mean, convex combination with the weight, logistic function" on four million
  samples of nine values, the first value of each sample returned.

  The kernel transposes the samples to nine rows, pads the columns to sixteen blocks of 256000, folds the convex
  combination into one nine by nine matrix `M = w · I + (1 - w) · S` and, block by block, iterates
  `x ↦ ½ · tanh (½ · (M · x)) + ½` three times and stores row 0; the host then drops the padding. The reference
  iterates `x ↦ 1 / (1 + exp (-(w · x + (1 - w) · (x · Sᵀ))))` and takes column 0. Over the extended reals, with
  finite inputs, the two results are equal entry by entry: `M · v = w · v + (1 - w) · (S · v)` by distributivity over
  a finite sum of reals, and `½ · tanh (z / 2) + ½ = 1 / (1 + e^(-z))`; each round returns reals, so the law iterates
  (Proof/Sigmoid.lean). Proof/KerValue.lean reads the kernel's result array as one function of the arguments
  (each output entry depends on its own column only; the sixteen blocks tile the array), Proof/RefRun.lean and
  Proof/RefRead.lean read the reference's, and Proof/Bridge.lean joins them under the precondition, which makes
  every input a real (Proof/Finite.lean). The ideal pass rewrote nothing, so the idealization claim is trivial.
-/
import proofs.«416986_j56925496541545_3_alg».proof.Defs
import proofs.«416986_j56925496541545_3_alg».proof.Proof.Gen.Kernel
import proofs.«416986_j56925496541545_3_alg».proof.Proof.Gen.Kernel.Skeleton
import proofs.«416986_j56925496541545_3_alg».proof.Proof.Gen.Kernel.Launch
import proofs.«416986_j56925496541545_3_alg».proof.Proof.Gen.Kernel.Points
import proofs.«416986_j56925496541545_3_alg».proof.Proof.Gen.Kernel.Frame
import proofs.«416986_j56925496541545_3_alg».proof.Proof.Gen.KernelIdeal
import proofs.«416986_j56925496541545_3_alg».proof.Proof.Gen.KernelIdeal.Skeleton
import proofs.«416986_j56925496541545_3_alg».proof.Proof.Gen.KernelIdeal.Launch
import proofs.«416986_j56925496541545_3_alg».proof.Proof.Gen.KernelIdeal.Points
import proofs.«416986_j56925496541545_3_alg».proof.Proof.Gen.KernelIdeal.Frame
import proofs.«416986_j56925496541545_3_alg».proof.Proof.Gen.ReferenceIdeal
import proofs.«416986_j56925496541545_3_alg».proof.Proof.Gen.Pre_finite_inputs
import proofs.«416986_j56925496541545_3_alg».proof.Proof.Bridge
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments as they were: its run, with the result's value dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The ideal pass rewrote no operation. -/
theorem preserves : Cert.preserves_Kernel_KernelIdeal := trivial

/-- From memories that agree on the arguments both idealized programs run, to equal results: the kernel's result
    array is the sliced `G` of its operands (Proof/KerValue.lean), the reference's its three rounds' first column
    (Proof/RefRun.lean), and under the precondition these are one function of the arguments (Proof/Bridge.lean). -/
theorem algebraic : Cert.algebraic_KernelIdeal_ReferenceIdeal := by
  intro m ρ m' ρ' hpre hagree
  refine ⟨_, Cert.KernelIdeal.KerValue.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2]
  exact Cert.Bridge.result_eq m c (hpre c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
